-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 83
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x32, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x32, .f32⟩
  | .hbm, ⟨74, _⟩ => ⟨S1700000x32, .f32⟩
  | .hbm, ⟨75, _⟩ => ⟨S1700000x32, .f32⟩
  | .hbm, ⟨76, _⟩ => ⟨S_, .f32⟩
  | .hbm, ⟨77, _⟩ => ⟨S100000x32, .f32⟩
  | .hbm, ⟨78, _⟩ => ⟨S1700000x1, .i32⟩
  | .hbm, ⟨79, _⟩ => ⟨S100000x32, .f32⟩
  | .hbm, ⟨80, _⟩ => ⟨S1x32, .f32⟩
  | .hbm, ⟨81, _⟩ => ⟨S100000x32, .f32⟩
  | .hbm, ⟨82, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S100000x64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x64, .f32⟩

abbrev hbmTy0_1 (i : Nat) : BufTy := match i % 128 with
  | 0 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Layer1.lean ====
/-
  The first dense projection, read as a value at the extended reals.

  The first kernel region walks the node axis in 20 blocks of 5000 rows. At a block it loads 5000 rows of the node
  features X (all 64 columns) and the whole 64 x 64 weight matrix W, and stores their matrix product. At the extended
  reals the change of float format before the product is the identity and the product into a zero accumulator is the
  plain sum, so the block's entry (p, q) is the sum over k of X(5000 t + p, k) * W(k, q): block t of the ONE array
  `xw X W`, whose entry (r, q) is the sum over k of X(r, k) * W(k, q). The 20 blocks tile the 100000 rows (row r lies
  in block r / 5000), so after the region the output array is `xw X W` of the arrays the region found.
  Everything is stated at ANY contents `V` of the buffers at the region's entry: the run instantiates it.
-/
import proofs.«117709_j78297253806422_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer1

open Cert.KernelIdeal Cert.KernelIdeal.Gen

/-- Row r, column k of a 100000 x 64 array. -/
abbrev nodeAt (r : Fin 100000) (k : Fin 64) : S100000x64.Idx := fun a => match a with
  | ⟨0, _⟩ => ⟨r.val, r.isLt⟩
  | ⟨1, _⟩ => ⟨k.val, k.isLt⟩
/-- Row k, column q of the 64 x 64 weight matrix. -/
abbrev weightAt (k : Fin 64) (q : Fin 64) : S64x64.Idx := fun a => match a with
  | ⟨0, _⟩ => ⟨k.val, k.isLt⟩
  | ⟨1, _⟩ => ⟨q.val, q.isLt⟩

/-- The matrix product X W of the node features with the first weight matrix: entry (r, q) is the sum over the
    64 feature columns k of X(r, k) * W(k, q). -/
def xw (X : (⟨S100000x64, .f32⟩ : BufTy).Contents (Elt Ideal)) (W : (⟨S64x64, .f32⟩ : BufTy).Contents (Elt Ideal)) :
    (⟨S100000x64, .f32⟩ : BufTy).Contents (Elt Ideal) :=
  fun i => ∑ k : Fin 64, X (nodeAt ⟨(i 0).val, (i 0).isLt⟩ k) * W (weightAt k ⟨(i 1).val, (i 1).isLt⟩)

theorem origin2 : (![0, 0] : Fin 2 → Nat) = fun _ => 0 := funext fun a => by fin_cases a <;> rfl

/-! ## The block product at an index -/

/-- Row p, column k of a 5000 x 64 block. -/
abbrev blockAt (p : Fin 5000) (k : Fin 64) : S5000x64.Idx := fun a => match a with
  | ⟨0, _⟩ => ⟨p.val, p.isLt⟩
  | ⟨1, _⟩ => ⟨k.val, k.isLt⟩

theorem lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What the body stores, at entry j of the block: the sum over k of the loaded rows' (j 0, k) times the loaded
    weights' (k, j 1). The format changes are the identity and the accumulator is zero. -/
theorem product_apply (x0 : Vec Ideal S5000x64 .f32) (x1 : Vec Ideal S64x64 .f32) (j : S5000x64.Idx) :
    k0_pay1 (F := Ideal) x0 x1 j
      = ∑ k : Fin 64, x0 (blockAt ⟨(j 0).val, (j 0).isLt⟩ k) * x1 (weightAt k ⟨(j 1).val, (j 1).isLt⟩) := by
  unfold k0_pay1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = blockAt ⟨(j 0).val, (j 0).isLt⟩ k := funext fun a => Fin.ext (by
    match a with
    | ⟨0, _⟩ => exact lhs_row _ _
    | ⟨1, _⟩ => exact (lhs_col _ _).trans hk)
  have er : dot_S5000x64_S64x64_S5000x64_1_0_0_1_n_n.rhsIdx j ((ValueIdx.contrEquiv1 dot_S5000x64_S64x64_S5000x64_1_0_0_1_n_n 64 rfl rfl).symm k) = weightAt k ⟨(j 1).val, (j 1).isLt⟩ := funext fun a => Fin.ext (by
    match a with
    | ⟨0, _⟩ => exact (rhs_row _ _).trans hk
    | ⟨1, _⟩ => exact rhs_col _ _)
  rw [ValueIdx.truncf_apply, ValueIdx.truncf_apply, el, er]

/-! ## Blocks of the arrays -/

variable (V : (c : Dev nD) → (b : Ref sig .tc) → Buf (Elt Ideal) ((c : Thread nD τ).loc b))

/-- Where the windows sit at point t: the row windows at block row t, column block 0; the weights at (0, 0). -/
theorem window_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t holds rows 5000 t … 5000 t + 4999 of the array. -/
theorem rows_block (c : Dev nD) (t : Fin cfg0.N) (p : Fin 5000) (k : Fin 64) (r : Fin 100000) (hr : r.val = 5000 * t.val + p.val) :
    (iblk0 V c 0 t : Vec Ideal S5000x64 .f32) (blockAt p k) = (V c main_arg0 : (⟨S100000x64, .f32⟩ : BufTy).Contents (Elt Ideal)) (nodeAt r k) := by
  obtain ⟨e0, e1, -, -, -, -⟩ := window_rows t
  unfold iblk0
  rw [View.read_apply]
  show V c main_arg0 (((cfg0.win 0).blk t).view.emb (blockAt p k)) = V c main_arg0 (nodeAt r k)
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- The weight window's block at every point is the whole matrix. -/
theorem weights_block (c : Dev nD) (t : Fin cfg0.N) (k q : Fin 64) :
    (iblk0 V c 1 t : Vec Ideal S64x64 .f32) (weightAt k q) = (V c main_arg2 : (⟨S64x64, .f32⟩ : BufTy).Contents (Elt Ideal)) (weightAt k q) := by
  obtain ⟨-, -, e0, e1, -, -⟩ := window_rows t
  unfold iblk0
  rw [View.read_apply]
  show V c main_arg2 (((cfg0.win 1).blk t).view.emb (weightAt k q)) = V c main_arg2 (weightAt k q)
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- What point t writes back is block t of the product of the arrays the region found. -/
theorem written_block (c : Dev nD) (t : Fin cfg0.N) :
    (dat0 V c).flushed 2 t = ((cfg0.win 2).blk t).view.read (Elt Ideal) (xw (V c main_arg0) (V c main_arg2)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S64x64) origin2]
  obtain ⟨-, -, -, -, e0, e1⟩ := window_rows t
  funext j
  rw [View.read_apply]
  refine (product_apply _ _ j).trans ?_
  have hj0 : (j 0).val < 5000 := (j 0).isLt
  have hj1 : (j 1).val < 64 := (j 1).isLt
  have ht : t.val < 20 := lt_of_lt_of_eq t.isLt N_0
  have hrow : ((((cfg0.win 2).blk t).view.emb j) 0).val = 5000 * t.val + (j 0).val := by
    show win0_2.index t (0 : Fin 2) * 5000 + 1 * (j 0).val = _; omega
  have hcol : ((((cfg0.win 2).blk t).view.emb j) 1).val = (j 1).val := by
    show win0_2.index t (1 : Fin 2) * 64 + 1 * (j 1).val = _; omega
  unfold xw
  refine Finset.sum_congr rfl fun k _ => ?_
  rw [rows_block V c t ⟨(j 0).val, hj0⟩ k ⟨((((cfg0.win 2).blk t).view.emb j) 0).val, by rw [hrow]; omega⟩ hrow, weights_block V c t k ⟨(j 1).val, hj1⟩]
  refine congrArg _ (congrArg _ (funext fun a => Fin.ext ?_))
  match a with
  | ⟨0, _⟩ => rfl
  | ⟨1, _⟩ => exact hcol.symm

/-- An index of the output array is in point t's block iff each coordinate is in the block's range. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row r of the output lies in the block of point r / 5000. -/
theorem rows_covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by have hN : cfg0.N = 20 := N_0; omega⟩
  obtain ⟨-, -, -, -, e0, e1⟩ := window_rows t
  have e0' : win0_2.index t (0 : Fin 2) = (i 0).val / 5000 := e0
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its output array is the product of the two arrays it found. -/
theorem product_array (c : Dev nD) : (dat0 V c).arrAt 2 cfg0.N = xw (V c main_arg0) (V c main_arg2) :=
  (dat0 V c).arrAt_eq_of_cover 2 (xw (V c main_arg0) (V c main_arg2)) (fun t _ => written_block V c t) rows_covered

end Cert.KernelIdeal.Layer1

end
-- ==== Proof.Layer2.lean ====
/-
  The second dense projection, fused with the bias and the rectifier, read as a value at the extended reals.

  The second kernel region walks the node axis in 20 blocks of 5000 rows. At a block it loads 5000 rows of the
  aggregated features A (64 columns), the bias as a 1 x 64 row B and the whole 64 x 32 weight matrix W; it adds the
  row to every loaded row, takes the maximum with zero, and stores the matrix product with W. At the extended reals
  the format changes are the identity and the product into a zero accumulator is the plain sum, so the block's entry
  (p, q) is the sum over k of max (A(5000 t + p, k) + B(0, k)) 0 * W(k, q): block t of the ONE array `hw A B W`,
  whose entry (r, q) is the sum over k of max (A(r, k) + B(0, k)) 0 * W(k, q). The 20 blocks tile the 100000 rows, so
  after the region the output array is `hw A B W` of the arrays the region found.
  Everything is stated at ANY contents `V` of the buffers at the region's entry: the run instantiates it.
-/
import proofs.«117709_j78297253806422_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer2

open Cert.KernelIdeal Cert.KernelIdeal.Gen

/-- Row r, column k of a 100000 x 64 array. -/
abbrev hiddenAt (r : Fin 100000) (k : Fin 64) : S100000x64.Idx := fun a => match a with
  | ⟨0, _⟩ => ⟨r.val, r.isLt⟩
  | ⟨1, _⟩ => ⟨k.val, k.isLt⟩
/-- Column k of the bias row. -/
abbrev biasAt (k : Fin 64) : S1x64.Idx := fun a => match a with
  | ⟨0, _⟩ => ⟨0, Nat.one_pos⟩
  | ⟨1, _⟩ => ⟨k.val, k.isLt⟩
/-- Row k, column q of the 64 x 32 weight matrix. -/
abbrev weightAt (k : Fin 64) (q : Fin 32) : S64x32.Idx := fun a => match a with
  | ⟨0, _⟩ => ⟨k.val, k.isLt⟩
  | ⟨1, _⟩ => ⟨q.val, q.isLt⟩

/-- relu (A + B) W: entry (r, q) is the sum over the 64 hidden columns k of max (A(r, k) + B(0, k)) 0 * W(k, q). -/
def hw (A : (⟨S100000x64, .f32⟩ : BufTy).Contents (Elt Ideal)) (B : (⟨S1x64, .f32⟩ : BufTy).Contents (Elt Ideal))
    (W : (⟨S64x32, .f32⟩ : BufTy).Contents (Elt Ideal)) : (⟨S100000x32, .f32⟩ : BufTy).Contents (Elt Ideal) :=
  fun i => ∑ k : Fin 64, max (A (hiddenAt ⟨(i 0).val, (i 0).isLt⟩ k) + B (biasAt k)) (Ideal.ofBits .f32 0x00000000#32)
    * W (weightAt k ⟨(i 1).val, (i 1).isLt⟩)

theorem origin2 : (![0, 0] : Fin 2 → Nat) = fun _ => 0 := funext fun a => by fin_cases a <;> rfl

/-! ## The block product at an index -/

/-- Row p, column k of a 5000 x 64 block. -/
abbrev blockAt (p : Fin 5000) (k : Fin 64) : S5000x64.Idx := fun a => match a with
  | ⟨0, _⟩ => ⟨p.val, p.isLt⟩
  | ⟨1, _⟩ => ⟨k.val, k.isLt⟩

theorem lhs_row (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_col (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem rhs_row (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem rhs_col (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The bias row spread over the 5000 rows of a block reads, at (p, k), the row's column k. -/
theorem bias_spread (x1 : Vec Ideal S1x64 .f32) (p : Fin 5000) (k : Fin 64) :
    (broadcastTo S5000x64 x1 broadcasts_S1x64_S5000x64 : FVec Ideal S5000x64 .f32) (blockAt p k) = x1 (biasAt k) :=
  broadcastTo_apply x1 broadcasts_S1x64_S5000x64 (blockAt p k) (biasAt k) fun a => by
    match a with
    | ⟨0, _⟩ => rfl
    | ⟨1, _⟩ => rfl

/-- What the body stores, at entry j of the block: the sum over k of max (rows(j 0, k) + bias(0, k)) 0 times the
    loaded weights' (k, j 1). The format changes and the same-shape casts are the identity, the accumulator is zero. -/
theorem product_apply (x0 : Vec Ideal S5000x64 .f32) (x1 : Vec Ideal S1x64 .f32) (x2 : Vec Ideal S64x32 .f32) (j : S5000x32.Idx) :
    k1_pay1 (F := Ideal) x0 x1 x2 j
      = ∑ k : Fin 64, max (x0 (blockAt ⟨(j 0).val, (j 0).isLt⟩ k) + x1 (biasAt k)) (Ideal.ofBits .f32 0x00000000#32)
          * x2 (weightAt k ⟨(j 1).val, (j 1).isLt⟩) := by
  unfold k1_pay1
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = blockAt ⟨(j 0).val, (j 0).isLt⟩ k := funext fun a => Fin.ext (by
    match a with
    | ⟨0, _⟩ => exact lhs_row _ _
    | ⟨1, _⟩ => exact (lhs_col _ _).trans hk)
  have er : dot_S5000x64_S64x32_S5000x32_1_0_0_1_n_n.rhsIdx j ((ValueIdx.contrEquiv1 dot_S5000x64_S64x32_S5000x32_1_0_0_1_n_n 64 rfl rfl).symm k) = weightAt k ⟨(j 1).val, (j 1).isLt⟩ := funext fun a => Fin.ext (by
    match a with
    | ⟨0, _⟩ => exact (rhs_row _ _).trans hk
    | ⟨1, _⟩ => exact rhs_col _ _)
  rw [ValueIdx.truncf_apply, ValueIdx.truncf_apply, el, er, ValueIdx.maximumf_apply, ValueIdx.addf_apply, shapeCast_self, shapeCast_self,
    bias_spread, ValueIdx.broadcast_apply]
  rfl

/-! ## Blocks of the arrays -/

variable (V : (c : Dev nD) → (b : Ref sig .tc) → Buf (Elt Ideal) ((c : Thread nD τ).loc b))

/-- Where the windows sit at point t: the row windows at block row t, column block 0; bias and weights at (0, 0). -/
theorem window_rows : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The hidden-feature window's block at point t holds rows 5000 t … 5000 t + 4999 of the array. -/
theorem rows_block (c : Dev nD) (t : Fin cfg1.N) (p : Fin 5000) (k : Fin 64) (r : Fin 100000) (hr : r.val = 5000 * t.val + p.val) :
    (iblk1 V c 0 t : Vec Ideal S5000x64 .f32) (blockAt p k) = (V c main_v43 : (⟨S100000x64, .f32⟩ : BufTy).Contents (Elt Ideal)) (hiddenAt r k) := by
  obtain ⟨e0, e1, -, -, -, -, -, -⟩ := window_rows t
  unfold iblk1
  rw [View.read_apply]
  show V c main_v43 (((cfg1.win 0).blk t).view.emb (blockAt p k)) = V c main_v43 (hiddenAt r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The bias window's block at every point is the whole row. -/
theorem bias_block (c : Dev nD) (t : Fin cfg1.N) (k : Fin 64) :
    (iblk1 V c 1 t : Vec Ideal S1x64 .f32) (biasAt k) = (V c main_v44 : (⟨S1x64, .f32⟩ : BufTy).Contents (Elt Ideal)) (biasAt k) := by
  obtain ⟨-, -, e0, e1, -, -, -, -⟩ := window_rows t
  unfold iblk1
  rw [View.read_apply]
  show V c main_v44 (((cfg1.win 1).blk t).view.emb (biasAt k)) = V c main_v44 (biasAt k)
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- The weight window's block at every point is the whole matrix. -/
theorem weights_block (c : Dev nD) (t : Fin cfg1.N) (k : Fin 64) (q : Fin 32) :
    (iblk1 V c 2 t : Vec Ideal S64x32 .f32) (weightAt k q) = (V c main_arg4 : (⟨S64x32, .f32⟩ : BufTy).Contents (Elt Ideal)) (weightAt k q) := by
  obtain ⟨-, -, -, -, e0, e1, -, -⟩ := window_rows t
  unfold iblk1
  rw [View.read_apply]
  show V c main_arg4 (((cfg1.win 2).blk t).view.emb (weightAt k q)) = V c main_arg4 (weightAt k q)
  refine congrArg _ (funext fun a => Fin.ext ?_)
  match a with
  | ⟨0, _⟩ => show win1_2.index t (0 : Fin 2) * 64 + 1 * k.val = k.val; omega
  | ⟨1, _⟩ => show win1_2.index t (1 : Fin 2) * 32 + 1 * q.val = q.val; omega

/-- What point t writes back is block t of relu (A + B) W of the arrays the region found. -/
theorem written_block (c : Dev nD) (t : Fin cfg1.N) :
    (dat1 V c).flushed 3 t = ((cfg1.win 3).blk t).view.read (Elt Ideal) (hw (V c main_v43) (V c main_v44) (V c main_arg4)) := by
  show (cfg1.win 3).cut (grid1.coords t) ((dat1 V c).after 3 t) = _
  rw [after1_3]
  unfold out1_3
  rw [View.canon_unit_zero origin2]
  simp only [View.ld_unit_zero (S := S5000x64) origin2, View.ld_unit_zero (S := S1x64) origin2, View.ld_unit_zero (S := S64x32) origin2]
  obtain ⟨-, -, -, -, -, -, e0, e1⟩ := window_rows t
  funext j
  rw [View.read_apply]
  refine (product_apply _ _ _ j).trans ?_
  have hj0 : (j 0).val < 5000 := (j 0).isLt
  have hj1 : (j 1).val < 32 := (j 1).isLt
  have ht : t.val < 20 := lt_of_lt_of_eq t.isLt N_1
  have hrow : ((((cfg1.win 3).blk t).view.emb j) 0).val = 5000 * t.val + (j 0).val := by
    show win1_3.index t (0 : Fin 2) * 5000 + 1 * (j 0).val = _; omega
  have hcol : ((((cfg1.win 3).blk t).view.emb j) 1).val = (j 1).val := by
    show win1_3.index t (1 : Fin 2) * 32 + 1 * (j 1).val = _; omega
  unfold hw
  refine Finset.sum_congr rfl fun k _ => ?_
  rw [rows_block V c t ⟨(j 0).val, hj0⟩ k ⟨((((cfg1.win 3).blk t).view.emb j) 0).val, by rw [hrow]; omega⟩ hrow, bias_block V c t k,
    weights_block V c t k ⟨(j 1).val, hj1⟩]
  refine congrArg _ (congrArg _ (funext fun a => Fin.ext ?_))
  match a with
  | ⟨0, _⟩ => rfl
  | ⟨1, _⟩ => exact hcol.symm

/-- An index of the output array is in point t's block iff each coordinate is in the block's range. -/
theorem mem_block (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v45).slice (win1_3.rect t)).set ↔ _
  rw [View.set_slice_whole, Rect.mem_set_unit]
  exact Iff.rfl

/-- Row r of the output lies in the block of point r / 5000. -/
theorem rows_covered (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  let t : Fin cfg1.N := ⟨(i 0).val / 5000, by have hN : cfg1.N = 20 := N_1; omega⟩
  obtain ⟨-, -, -, -, -, -, e0, e1⟩ := window_rows t
  have e0' : win1_3.index t (0 : Fin 2) = (i 0).val / 5000 := e0
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- After the region its output array is relu (A + B) W of the three arrays it found. -/
theorem product_array (c : Dev nD) : (dat1 V c).arrAt 3 cfg1.N = hw (V c main_v43) (V c main_v44) (V c main_arg4) :=
  (dat1 V c).arrAt_eq_of_cover 3 (hw (V c main_v43) (V c main_v44) (V c main_arg4)) (fun t _ => written_block V c t) rows_covered

end Cert.KernelIdeal.Layer2

end
-- ==== Proof.Graph.lean ====
/-
  The graph side of the two convolution layers, as named functions of the edge list.

  Both layers aggregate over the same graph: the 1.6 million given edges followed by one self loop per node.
  `sources` and `targets` are the two endpoint lists (given endpoints, then 0 … 99999); `wrapped` is the indexing
  convention that reads a negative index from the end (add 100000 where the index is negative); `degree` counts, per
  node, the edges that end in it; `invSqrtDegree` is degree^(-1/2) where the degree is positive and 0 elsewhere;
  `edgeWeight` is, per edge, the product of that number at its two endpoints; `aggregate64` / `aggregate32` gather a
  node array's rows at the sources, scale each by its edge's weight, and add them into the rows of the targets;
  `output` adds the last bias to every row. These are the host operations of the program, grouped; nothing is
  opened here: the certificate only needs that both programs apply the SAME functions.
-/
import proofs.«117709_j78297253806422_1_alg».proof.Proof.Gen.KernelIdeal

noncomputable section

open Idealize.ShloMosaic Idealize.SL.Sem

namespace Cert.KernelIdeal.Graph

open Cert.KernelIdeal Cert.KernelIdeal.Gen

variable {F : FTy → Type} [FloatOps F]

/-- The source endpoint of every edge, then every node once (the self loops). -/
def sources (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The target endpoint of every edge, then every node once (the self loops). -/
def targets (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative index counts from the end: 100000 is added to it. -/
def wrapped (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- An index list as the one-column index array a gather or a scatter takes. -/
def asColumn (v : (⟨S1700000, .i32⟩ : BufTy).Contents (Elt F)) : (⟨S1700000x1, .i32⟩ : BufTy).Contents (Elt F) :=
  broadcastInDim S1700000x1 ![0] bcast_S1700000_S1700000x1_0 v

/-- Per node, the number of edges that end in it: ones added into a zero array at the targets. -/
def degree (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (asColumn (targets e))
    (broadcastInDim S1700000 ![] bcast_S_S1700000 (constant S_ .f32 0x3F800000#32))

/-- degree^(-1/2) where the degree is positive, 0 elsewhere. -/
def invSqrtDegree (e : (⟨S2x1600000, .i32⟩ : BufTy).Contents (Elt F)) : (⟨S100000, .f32⟩ : BufTy).Contents (Elt F) :=
  select (cmpf (F := F) .ogt (degree e) (broadcastInDim S100000 ![] bcast_S_S100000 (constant S_ .f32 0x00000000#32)))
    (Host.rsqrt (degree e))
    (broadcastInDim S100000 ![] bcast_S_S100000 (id (constant S_ .f32 0x00000000#32)))

/-- Per edge, the product of `invSqrtDegree` at its source and at its target, as a one-column array. -/
def edgeWeight (e : (⟨S2x1600000, .i32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 (invSqrtDegree e) (asColumn (wrapped (sources e))))
      (Host.gather gather_S100000_S1700000x1_S1700000_n_0_n_n_0_1_1 (invSqrtDegree e) (asColumn (wrapped (targets e)))))

/-- Rows of a 64-column node array gathered at the sources, scaled by the edge weights, added at the targets. -/
def aggregate64 (e : (⟨S2x1600000, .i32⟩ : BufTy).Contents (Elt F)) (y : (⟨S100000x64, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (asColumn (targets e))
    (mulf (Host.gather gather_S100000x64_S1700000x1_S1700000x64_1_0_n_n_0_1_164 y (asColumn (wrapped (sources e))))
      (broadcastInDim S1700000x64 ![0, 1] bcast_S1700000x1_S1700000x64_0_1 (edgeWeight e)))

/-- The same for a 32-column node array. -/
def aggregate32 (e : (⟨S2x1600000, .i32⟩ : BufTy).Contents (Elt F)) (y : (⟨S100000x32, .f32⟩ : BufTy).Contents (Elt F)) :
    (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (asColumn (targets e))
    (mulf (Host.gather gather_S100000x32_S1700000x1_S1700000x32_1_0_n_n_0_1_132 y (asColumn (wrapped (sources e))))
      (broadcastInDim S1700000x32 ![0, 1] bcast_S1700000x1_S1700000x32_0_1 (edgeWeight e)))

/-- The second layer's aggregate with the last bias added to every row. -/
def output (e : (⟨S2x1600000, .i32⟩ : BufTy).Contents (Elt F)) (y : (⟨S100000x32, .f32⟩ : BufTy).Contents (Elt F))
    (b : (⟨S32, .f32⟩ : BufTy).Contents (Elt F)) : (⟨S100000x32, .f32⟩ : BufTy).Contents (Elt F) :=
  addf (aggregate32 e y) (broadcastInDim S100000x32 ![0, 1] bcast_S1x32_S100000x32_0_1 (broadcastInDim S1x32 ![1] bcast_S32_S1x32_1 b))

end Cert.KernelIdeal.Graph

end
-- ==== Proof.Fold.lean ====
/-
  The idealized kernel program's result array, read off the fold of @main's segments.

  @main is five stretches of host operations around two kernel regions, and the frame run leaves every buffer at the
  contents of a fold `W0 … W7` through those seven segments. Read here, boundary by boundary: the first three
  stretches compute the endpoint lists and the edge weights from the edge list; the first region leaves the product
  X W1 (`Layer1.product_array`); the fourth stretch aggregates it over the graph and reshapes the first bias into a
  row; the second region leaves relu (A + b1) W2 (`Layer2.product_array`); the last stretch aggregates that and adds
  the second bias. A buffer that a segment does not write keeps its contents across it, which is how the endpoint
  lists, the edge weights and the arguments reach the segments that read them.
-/
import proofs.«117709_j78297253806422_1_alg».proof.Proof.Gen.KernelIdeal.Frame
import proofs.«117709_j78297253806422_1_alg».proof.Proof.Layer1
import proofs.«117709_j78297253806422_1_alg».proof.Proof.Layer2
import proofs.«117709_j78297253806422_1_alg».proof.Proof.Graph
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.Graph

variable (m : (ℓ : Loc nD τ sig) → Buf (Elt Ideal) ℓ) (ρ : Dev nD → PrngReg) (c : Dev nD)

/-! ## What each stretch writes, and what it therefore keeps -/

abbrev written0 : List (Ref sig .tc) :=
  [main_v0, main_v1, main_v2, main_v3, main_v4, main_v5, main_v6, main_cst, main_v7, main_cst_0, main_v8, main_v9, main_v10,
   main_cst_1, main_v11, main_v12, main_v13, main_cst_2]
abbrev written0_1 : List (Ref sig .tc) := [main_call0_v0, main_call0_v1, main_v14]
abbrev written0_2 : List (Ref sig .tc) :=
  [main_c, main_v15, main_v16, main_c_3, main_v17, main_v18, main_v19, main_v20, main_v21, main_c_4, main_v22, main_v23, main_c_5,
   main_v24, main_v25, main_v26, main_v27, main_v28, main_v29, main_v30]
abbrev written1 : List (Ref sig .tc) :=
  [main_c_6, main_v32, main_v33, main_c_7, main_v34, main_v35, main_v36, main_v37, main_v38, main_v39, main_v40, main_cst_8,
   main_v41, main_v42, main_v43, main_v44]

theorem written0_sub : (hostOps0 : List (HloOp τ sig (Elt Ideal))).Forall fun op => op.writes ⊆ (written0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem written0_1_sub : (hostOps0_1 : List (HloOp τ sig (Elt Ideal))).Forall fun op => op.writes ⊆ (written0_1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem written0_2_sub : (hostOps0_2 : List (HloOp τ sig (Elt Ideal))).Forall fun op => op.writes ⊆ (written0_2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem written1_sub : (hostOps1 : List (HloOp τ sig (Elt Ideal))).Forall fun op => op.writes ⊆ (written1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem keep1 (r : Ref sig .tc) (h : r ∉ written0) : W1 m ρ c (Proc.devRef .tc r) = W0 m ρ c (Proc.devRef .tc r) :=
  StableHlo.after_of_writes_sub hostOps0 _ written0_sub h
theorem keep2 (r : Ref sig .tc) (h : r ∉ written0_1) : W2 m ρ c (Proc.devRef .tc r) = W1 m ρ c (Proc.devRef .tc r) :=
  StableHlo.after_of_writes_sub hostOps0_1 _ written0_1_sub h
theorem keep3 (r : Ref sig .tc) (h : r ∉ written0_2) : W3 m ρ c (Proc.devRef .tc r) = W2 m ρ c (Proc.devRef .tc r) :=
  StableHlo.after_of_writes_sub hostOps0_2 _ written0_2_sub h
theorem keep5 (r : Ref sig .tc) (h : r ∉ written1) : W5 m ρ c (Proc.devRef .tc r) = W4 m ρ c (Proc.devRef .tc r) :=
  StableHlo.after_of_writes_sub hostOps1 _ written1_sub h

/-- An argument reaches the first region as launched. -/
theorem arg_at3 (r : Ref sig .tc) (h0 : r ∉ written0) (h1 : r ∉ written0_1) (h2 : r ∉ written0_2) :
    W3 m ρ c (Proc.devRef .tc r) = m ((c : Thread nD τ).loc r) :=
  (keep3 m ρ c r h2).trans ((keep2 m ρ c r h1).trans (keep1 m ρ c r h0))

/-! ## The first stretch: the endpoint lists and the degrees -/

theorem sources_at1 : W1 m ρ c (Proc.devRef .tc main_v5) = sources (m ((c : Thread nD τ).loc main_arg1)) := by
  show StableHlo.after hostOps0 (W0 m ρ c) (Proc.devRef .tc main_v5) = _
  after_results
  rfl
theorem targets_at1 : W1 m ρ c (Proc.devRef .tc main_v6) = targets (m ((c : Thread nD τ).loc main_arg1)) := by
  show StableHlo.after hostOps0 (W0 m ρ c) (Proc.devRef .tc main_v6) = _
  after_results
  rfl
theorem positive_at1 : W1 m ρ c (Proc.devRef .tc main_v12)
    = cmpf (F := Ideal) .ogt (degree (m ((c : Thread nD τ).loc main_arg1))) (broadcastInDim S100000 ![] bcast_S_S100000 (constant S_ .f32 0x00000000#32)) := by
  show StableHlo.after hostOps0 (W0 m ρ c) (Proc.devRef .tc main_v12) = _
  after_results
  rfl
theorem rsqrt_at1 : W1 m ρ c (Proc.devRef .tc main_v13) = Host.rsqrt (degree (m ((c : Thread nD τ).loc main_arg1))) := by
  show StableHlo.after hostOps0 (W0 m ρ c) (Proc.devRef .tc main_v13) = _
  after_results
  rfl
theorem zero_at1 : W1 m ρ c (Proc.devRef .tc main_cst_2) = constant (F := Ideal) S_ .f32 0x00000000#32 := by
  show StableHlo.after hostOps0 (W0 m ρ c) (Proc.devRef .tc main_cst_2) = _
  after_results

/-! ## The second stretch: degree^(-1/2) where positive -/

/-- Over any contents: the select of the second stretch, from the three buffers it reads. -/
theorem select_stretch {F : FTy → Type} [FloatOps F] (W : Valuation τ sig (Elt F))
    (p : (⟨S100000, .i1⟩ : BufTy).Contents (Elt F)) (r : (⟨S100000, .f32⟩ : BufTy).Contents (Elt F)) (z : (⟨S_, .f32⟩ : BufTy).Contents (Elt F))
    (hp : W (Proc.devRef .tc main_v12) = p) (hr : W (Proc.devRef .tc main_v13) = r) (hz : W (Proc.devRef .tc main_cst_2) = z) :
    StableHlo.after hostOps0_1 W (Proc.devRef .tc main_v14) = select p r (broadcastInDim S100000 ![] bcast_S_S100000 (id z)) := by
  after_results
  rw [hp, hr, hz]
  simp only [StableHlo.TRef.ofBuf, StableHlo.TRef.toBuf, cast_eq]

theorem invSqrt_at2 : W2 m ρ c (Proc.devRef .tc main_v14) = invSqrtDegree (m ((c : Thread nD τ).loc main_arg1)) :=
  select_stretch (W1 m ρ c) _ _ _ (positive_at1 m ρ c) (rsqrt_at1 m ρ c) (zero_at1 m ρ c)

/-! ## The third stretch: the edge weights -/

theorem sources_at3 : W3 m ρ c (Proc.devRef .tc main_v5) = sources (m ((c : Thread nD τ).loc main_arg1)) :=
  (keep3 m ρ c main_v5 (by decide)).trans ((keep2 m ρ c main_v5 (by decide)).trans (sources_at1 m ρ c))
theorem targets_at3 : W3 m ρ c (Proc.devRef .tc main_v6) = targets (m ((c : Thread nD τ).loc main_arg1)) :=
  (keep3 m ρ c main_v6 (by decide)).trans ((keep2 m ρ c main_v6 (by decide)).trans (targets_at1 m ρ c))

/-- Over any contents: the edge weights of the third stretch, from the three buffers it reads. -/
theorem weights_stretch {F : FTy → Type} [FloatOps F] (W : Valuation τ sig (Elt F))
    (d : (⟨S100000, .f32⟩ : BufTy).Contents (Elt F)) (s t : (⟨S1700000, .i32⟩ : BufTy).Contents (Elt F))
    (hd : W (Proc.devRef .tc main_v14) = d) (hs : W (Proc.devRef .tc main_v5) = s) (ht : W (Proc.devRef .tc main_v6) = t) :
    StableHlo.after hostOps0_2 W (Proc.devRef .tc main_v30)
      = broadcastInDim S1700000x1 ![0] bcast_S1700000_S1700000x1_0
          (mulf (Host.gather gather_S100000_S1700000x1_S1700000_n_0_n_n_0_1_1 d (asColumn (wrapped s)))
            (Host.gather gather_S100000_S1700000x1_S1700000_n_0_n_n_0_1_1 d (asColumn (wrapped t)))) := by
  after_results_simp
  rw [hd, hs, ht]
  rfl

theorem weights_at3 : W3 m ρ c (Proc.devRef .tc main_v30) = edgeWeight (m ((c : Thread nD τ).loc main_arg1)) :=
  weights_stretch (W2 m ρ c) _ _ _ (invSqrt_at2 m ρ c)
    ((keep2 m ρ c main_v5 (by decide)).trans (sources_at1 m ρ c)) ((keep2 m ρ c main_v6 (by decide)).trans (targets_at1 m ρ c))

/-! ## The first region and the fourth stretch -/

theorem product_at4 : W4 m ρ c (Proc.devRef .tc main_v31)
    = Layer1.xw (m ((c : Thread nD τ).loc main_arg0)) (m ((c : Thread nD τ).loc main_arg2)) := by
  have e := (W4_arr m ρ c 2).trans (Layer1.product_array (V3 m ρ) c)
  rw [show V3 m ρ c main_arg0 = m ((c : Thread nD τ).loc main_arg0) from arg_at3 m ρ c main_arg0 (by decide) (by decide) (by decide),
    show V3 m ρ c main_arg2 = m ((c : Thread nD τ).loc main_arg2) from arg_at3 m ρ c main_arg2 (by decide) (by decide) (by decide)] at e
  exact e

/-- A buffer the first region does not own, and the first three stretches leave at `x`, it finds and leaves at `x`. -/
theorem across4 (r : Ref sig .tc) (hr : ∀ w, Pipeline.arrRef spec0 w ≠ r) : W4 m ρ c (Proc.devRef .tc r) = W3 m ρ c (Proc.devRef .tc r) :=
  W4_of_ne m ρ c r hr

/-- Over any contents: the fourth stretch's aggregate, from the four buffers it reads. -/
theorem aggregate_stretch {F : FTy → Type} [FloatOps F] (W : Valuation τ sig (Elt F))
    (y : (⟨S100000x64, .f32⟩ : BufTy).Contents (Elt F)) (s t : (⟨S1700000, .i32⟩ : BufTy).Contents (Elt F))
    (w : (⟨S1700000x1, .f32⟩ : BufTy).Contents (Elt F))
    (hy : W (Proc.devRef .tc main_v31) = y) (hs : W (Proc.devRef .tc main_v5) = s) (ht : W (Proc.devRef .tc main_v6) = t)
    (hw : W (Proc.devRef .tc main_v30) = w) :
    StableHlo.after hostOps1 W (Proc.devRef .tc main_v43)
      = Host.scatterAdd scatter_S100000x64_S1700000x1_S1700000x64_1_0_0_1
          (broadcastInDim S100000x64 ![] bcast_S_S100000x64 (constant S_ .f32 0x00000000#32))
          (asColumn t)
          (mulf (Host.gather gather_S100000x64_S1700000x1_S1700000x64_1_0_n_n_0_1_164 y (asColumn (wrapped s)))
            (broadcastInDim S1700000x64 ![0, 1] bcast_S1700000x1_S1700000x64_0_1 w)) := by
  after_results_simp
  rw [hy, hs, ht, hw]
  rfl

theorem aggregated_at5 : W5 m ρ c (Proc.devRef .tc main_v43)
    = aggregate64 (m ((c : Thread nD τ).loc main_arg1)) (Layer1.xw (m ((c : Thread nD τ).loc main_arg0)) (m ((c : Thread nD τ).loc main_arg2))) :=
  aggregate_stretch (W4 m ρ c) _ _ _ _ (product_at4 m ρ c)
    ((across4 m ρ c main_v5 (by decide)).trans (sources_at3 m ρ c))
    ((across4 m ρ c main_v6 (by decide)).trans (targets_at3 m ρ c))
    ((across4 m ρ c main_v30 (by decide)).trans (weights_at3 m ρ c))

theorem biasRow_at5 : W5 m ρ c (Proc.devRef .tc main_v44)
    = (shapeCast S1x64 (m ((c : Thread nD τ).loc main_arg3) : (⟨S64, .f32⟩ : BufTy).Contents (Elt Ideal)) shapeCasts_S64_S1x64 : (⟨S1x64, .f32⟩ : BufTy).Contents (Elt Ideal)) := by
  have h3 := (across4 m ρ c main_arg3 (by decide)).trans (arg_at3 m ρ c main_arg3 (by decide) (by decide) (by decide))
  show StableHlo.after hostOps1 (W4 m ρ c) (Proc.devRef .tc main_v44) = _
  generalize W4 m ρ c = W at h3 ⊢
  after_results
  rw [h3]
  rfl

theorem weights2_at5 : W5 m ρ c (Proc.devRef .tc main_arg4) = m ((c : Thread nD τ).loc main_arg4) :=
  (keep5 m ρ c main_arg4 (by decide)).trans ((across4 m ρ c main_arg4 (by decide)).trans (arg_at3 m ρ c main_arg4 (by decide) (by decide) (by decide)))

/-! ## The second region and the last stretch -/

theorem hidden_at6 : W6 m ρ c (Proc.devRef .tc main_v45)
    = Layer2.hw (aggregate64 (m ((c : Thread nD τ).loc main_arg1)) (Layer1.xw (m ((c : Thread nD τ).loc main_arg0)) (m ((c : Thread nD τ).loc main_arg2))))
        (shapeCast S1x64 (m ((c : Thread nD τ).loc main_arg3) : (⟨S64, .f32⟩ : BufTy).Contents (Elt Ideal)) shapeCasts_S64_S1x64)
        (m ((c : Thread nD τ).loc main_arg4)) := by
  have e := (W6_arr m ρ c 3).trans (Layer2.product_array (V5 m ρ) c)
  rw [show V5 m ρ c main_v43 = _ from aggregated_at5 m ρ c, show V5 m ρ c main_v44 = _ from biasRow_at5 m ρ c,
    show V5 m ρ c main_arg4 = _ from weights2_at5 m ρ c] at e
  exact e

/-- A buffer neither the fourth stretch nor the second region writes. -/
theorem across6 (r : Ref sig .tc) (h : r ∉ written1) (hr : ∀ w, Pipeline.arrRef spec1 w ≠ r) :
    W6 m ρ c (Proc.devRef .tc r) = W4 m ρ c (Proc.devRef .tc r) :=
  (W6_of_ne m ρ c r hr).trans (keep5 m ρ c r h)

/-- THE RESULT ARRAY at the end of the fold, as a function of the six argument arrays. -/
def result (e : (⟨S2x1600000, .i32⟩ : BufTy).Contents (Elt Ideal)) (x : (⟨S100000x64, .f32⟩ : BufTy).Contents (Elt Ideal))
    (w1 : (⟨S64x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal)) :
    (⟨S100000x32, .f32⟩ : BufTy).Contents (Elt Ideal) :=
  output e (Layer2.hw (aggregate64 e (Layer1.xw x w1)) (shapeCast S1x64 b1 shapeCasts_S64_S1x64) w2) b2

/-- Over any contents: the last stretch's result, from the five buffers it reads. -/
theorem output_stretch {F : FTy → Type} [FloatOps F] (W : Valuation τ sig (Elt F))
    (y : (⟨S100000x32, .f32⟩ : BufTy).Contents (Elt F)) (s t : (⟨S1700000, .i32⟩ : BufTy).Contents (Elt F))
    (w : (⟨S1700000x1, .f32⟩ : BufTy).Contents (Elt F)) (b : (⟨S32, .f32⟩ : BufTy).Contents (Elt F))
    (hy : W (Proc.devRef .tc main_v45) = y) (hs : W (Proc.devRef .tc main_v5) = s) (ht : W (Proc.devRef .tc main_v6) = t)
    (hw : W (Proc.devRef .tc main_v30) = w) (hb : W (Proc.devRef .tc main_arg5) = b) :
    StableHlo.after hostOps2 W (Proc.devRef .tc main_v60)
      = addf (Host.scatterAdd scatter_S100000x32_S1700000x1_S1700000x32_1_0_0_1
            (broadcastInDim S100000x32 ![] bcast_S_S100000x32 (constant S_ .f32 0x00000000#32))
            (asColumn t)
            (mulf (Host.gather gather_S100000x32_S1700000x1_S1700000x32_1_0_n_n_0_1_132 y (asColumn (wrapped s)))
              (broadcastInDim S1700000x32 ![0, 1] bcast_S1700000x1_S1700000x32_0_1 w)))
          (broadcastInDim S100000x32 ![0, 1] bcast_S1x32_S100000x32_0_1 (broadcastInDim S1x32 ![1] bcast_S32_S1x32_1 b)) := by
  after_results_simp
  rw [hy, hs, ht, hw, hb]
  rfl

theorem result_at7 : W7 m ρ c (Proc.devRef .tc main_v60)
    = result (m ((c : Thread nD τ).loc main_arg1)) (m ((c : Thread nD τ).loc main_arg0)) (m ((c : Thread nD τ).loc main_arg2))
        (m ((c : Thread nD τ).loc main_arg3)) (m ((c : Thread nD τ).loc main_arg4)) (m ((c : Thread nD τ).loc main_arg5)) :=
  output_stretch (W6 m ρ c) _ _ _ _ _ (hidden_at6 m ρ c)
    ((across6 m ρ c main_v5 (by decide) (by decide)).trans ((across4 m ρ c main_v5 (by decide)).trans (sources_at3 m ρ c)))
    ((across6 m ρ c main_v6 (by decide) (by decide)).trans ((across4 m ρ c main_v6 (by decide)).trans (targets_at3 m ρ c)))
    ((across6 m ρ c main_v30 (by decide) (by decide)).trans ((across4 m ρ c main_v30 (by decide)).trans (weights_at3 m ρ c)))
    ((across6 m ρ c main_arg5 (by decide) (by decide)).trans ((across4 m ρ c main_arg5 (by decide)).trans (arg_at3 m ρ c main_arg5 (by decide) (by decide) (by decide))))

end Cert.KernelIdeal.Fold

end
-- ==== Proof.ReferenceTerm.lean ====
/-
  The reference program's result as the same graph functions around two dense products.

  The reference's composed term applies, operation for operation, the host chain of `Graph` — the endpoint lists, the
  wrapped indices, the degrees, degree^(-1/2), the edge weights, gather / scale / scatter-add, the bias — twice, once
  per layer (it recomputes the edge weights for the second layer from the same edge list, which gives the same
  array). Between the two aggregations it forms the first product X W1 as one `dot_general`, adds the first bias
  spread over the rows, takes the maximum with zero, and multiplies by W2 as a second `dot_general`. Stated for any
  float instance: the equation is a regrouping of the printed operations, no arithmetic.
-/
import proofs.«117709_j78297253806422_1_alg».proof.Proof.ReferenceRun
import proofs.«117709_j78297253806422_1_alg».proof.Proof.Graph

set_option maxRecDepth 16384

noncomputable section

open Idealize.ShloMosaic Idealize.ShloMosaic.TcCoe Idealize.SL.Sem

namespace Cert.ReferenceIdeal.Term

open Cert.ReferenceIdeal Cert.ReferenceIdeal.Gen

variable {F : FTy → Type} [FloatOps F]

/-- The reference's two layers over the shared graph functions: aggregate X W1, add the first bias to every row,
    rectify, multiply by W2, aggregate again, add the second bias. -/
def twoLayers (e : (⟨S2x1600000, .i32⟩ : BufTy).Contents (Elt F)) (x : (⟨S100000x64, .f32⟩ : BufTy).Contents (Elt F))
    (w1 : (⟨S64x64, .f32⟩ : BufTy).Contents (Elt F)) (b1 : (⟨S64, .f32⟩ : BufTy).Contents (Elt F))
    (w2 : (⟨S64x32, .f32⟩ : BufTy).Contents (Elt F)) (b2 : (⟨S32, .f32⟩ : BufTy).Contents (Elt F)) :
    (⟨S100000x32, .f32⟩ : BufTy).Contents (Elt F) :=
  Cert.KernelIdeal.Graph.output e
    (Host.dotGeneral dot_S100000x64_S64x32_S100000x32_1_0_0_1_n_n none
      (maximumf
        (addf (Cert.KernelIdeal.Graph.aggregate64 e (Host.dotGeneral dot_S100000x64_S64x64_S100000x64_1_0_0_1_n_n none x w1))
          (broadcastInDim S100000x64 ![0, 1] bcast_S1x64_S100000x64_0_1 (broadcastInDim S1x64 ![1] bcast_S64_S1x64_1 b1)))
        (broadcastInDim S100000x64 ![] bcast_S_S100000x64 (constant S_ .f32 0x00000000#32)))
      w2)
    b2

/-- The reference run's result term is `twoLayers` of the six argument arrays. -/
theorem result_term (m : (ℓ : Loc nD τ sig) → Buf (Elt F) ℓ) (c : Dev nD) :
    Cert.ReferenceIdeal.Value.res_main_v94 m c
      = twoLayers (m ((c.tc : Thread nD τ).loc main_arg1)) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v94
  rfl

end Cert.ReferenceIdeal.Term

end
-- ==== Proof.Bridge.lean ====
/-
  The two programs compute one function of the six argument arrays, at the extended reals.

  The reference's two layers and the kernel program's result differ in two places only. The reference forms each dense
  product as one whole `dot_general`, the kernel program block by block on the matrix unit: at the extended reals both are
  the array whose entry (r, q) is the sum over k of the left operand's (r, k) times the right operand's (k, q)
  (`first_product`, `second_product`; for the second layer the left operand is max (A + b1) 0, the bias read through the
  row it is spread from). And the reference spreads the first bias from a 1 x 64 row made by a broadcast, the kernel
  program from the same row made by a reshape: both rows hold b1(k) at column k (`bias_row`). The graph side — the
  endpoint lists, the edge weights, gather / scale / scatter-add — is the same function on both sides and is never
  opened; no law of arithmetic beyond these identifications is used, so finiteness of the inputs plays no part.
-/
import proofs.«117709_j78297253806422_1_alg».proof.Proof.ReferenceTerm
import proofs.«117709_j78297253806422_1_alg».proof.Proof.Fold
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.ReferenceIdeal.Bridge

open Cert.ReferenceIdeal Cert.ReferenceIdeal.Gen
open Cert.KernelIdeal (Layer1.xw Layer1.nodeAt Layer1.weightAt Layer2.hw Layer2.hiddenAt Layer2.biasAt Layer2.weightAt)

/-! ## The first product -/

theorem lhs1_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs1_col (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs1_row (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs1_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The reference's first `dot_general` is the array of row-by-column sums. -/
theorem first_product (x : (⟨S100000x64, .f32⟩ : BufTy).Contents (Elt Ideal)) (w : (⟨S64x64, .f32⟩ : BufTy).Contents (Elt Ideal)) :
    (Host.dotGeneral (F := Ideal) (φ₁ := .f32) (φ₂ := .f32) dot_S100000x64_S64x64_S100000x64_1_0_0_1_n_n none x w : (⟨S100000x64, .f32⟩ : BufTy).Contents (Elt Ideal)) = Cert.KernelIdeal.Layer1.xw x w := by
  funext i
  simp only [Host.dotGeneral]
  rw [Ideal.dotGeneral_apply, ← Equiv.sum_comp (ValueIdx.contrEquiv1 dot_S100000x64_S64x64_S100000x64_1_0_0_1_n_n 64 rfl rfl).symm]
  unfold Cert.KernelIdeal.Layer1.xw
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = Cert.KernelIdeal.Layer1.nodeAt ⟨(i 0).val, (i 0).isLt⟩ k := funext fun a => Fin.ext (by
    match a with
    | ⟨0, _⟩ => exact lhs1_row _ _
    | ⟨1, _⟩ => exact (lhs1_col _ _).trans hk)
  have er : dot_S100000x64_S64x64_S100000x64_1_0_0_1_n_n.rhsIdx i ((ValueIdx.contrEquiv1 dot_S100000x64_S64x64_S100000x64_1_0_0_1_n_n 64 rfl rfl).symm k) = Cert.KernelIdeal.Layer1.weightAt k ⟨(i 1).val, (i 1).isLt⟩ := funext fun a => Fin.ext (by
    match a with
    | ⟨0, _⟩ => exact (rhs1_row _ _).trans hk
    | ⟨1, _⟩ => exact rhs1_col _ _)
  rw [el, er]

/-! ## The second product, of the rectified sum -/

theorem lhs2_row (i : S100000x32.Idx) (q : dot_S100000x64_S64x32_S100000x32_1_0_0_1_n_n.contr.Idx) :
    (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhs2_col (i : S100000x32.Idx) (q : dot_S100000x64_S64x32_S100000x32_1_0_0_1_n_n.contr.Idx) :
    (dot_S100000x64_S64x32_S100000x32_1_0_0_1_n_n.lhsIdx i q 1).val = (q ⟨0, by decide⟩).val :=
  dot_S100000x64_S64x32_S100000x32_1_0_0_1_n_n.lhsIdx_val_of_single rfl i q
theorem rhs2_row (i : S100000x32.Idx) (q : dot_S100000x64_S64x32_S100000x32_1_0_0_1_n_n.contr.Idx) :
    (dot_S100000x64_S64x32_S100000x32_1_0_0_1_n_n.rhsIdx i q 0).val = (q ⟨0, by decide⟩).val :=
  dot_S100000x64_S64x32_S100000x32_1_0_0_1_n_n.rhsIdx_val_of_single rfl i q
theorem rhs2_col (i : S100000x32.Idx) (q : dot_S100000x64_S64x32_S100000x32_1_0_0_1_n_n.contr.Idx) :
    (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- A 1 x 64 row spread over the 100000 rows reads, at (r, k), the row's column k. -/
theorem row_spread (b : (⟨S1x64, .f32⟩ : BufTy).Contents (Elt Ideal)) (r : Fin 100000) (k : Fin 64) :
    (broadcastInDim S100000x64 ![0, 1] bcast_S1x64_S100000x64_0_1 b : (⟨S100000x64, .f32⟩ : BufTy).Contents (Elt Ideal)) (Cert.KernelIdeal.Layer2.hiddenAt r k)
      = b (Cert.KernelIdeal.Layer2.biasAt k) :=
  broadcastInDim_apply ![0, 1] bcast_S1x64_S100000x64_0_1 b (Cert.KernelIdeal.Layer2.hiddenAt r k) (Cert.KernelIdeal.Layer2.biasAt k) fun a => by
    match a with
    | ⟨0, _⟩ => rfl
    | ⟨1, _⟩ => rfl

/-- The reference's second `dot_general`, of max (A + bias row) 0 with W, is the array of those row-by-column sums. -/
theorem second_product (A : (⟨S100000x64, .f32⟩ : BufTy).Contents (Elt Ideal)) (b : (⟨S1x64, .f32⟩ : BufTy).Contents (Elt Ideal))
    (w : (⟨S64x32, .f32⟩ : BufTy).Contents (Elt Ideal)) :
    (Host.dotGeneral (F := Ideal) (φ₁ := .f32) (φ₂ := .f32) dot_S100000x64_S64x32_S100000x32_1_0_0_1_n_n none
        (maximumf (F := Ideal) (addf (F := Ideal) A (broadcastInDim S100000x64 ![0, 1] bcast_S1x64_S100000x64_0_1 b))
          (broadcastInDim S100000x64 ![] bcast_S_S100000x64 (constant (F := Ideal) S_ .f32 0x00000000#32))) w
        : (⟨S100000x32, .f32⟩ : BufTy).Contents (Elt Ideal))
      = Cert.KernelIdeal.Layer2.hw A b w := by
  funext i
  simp only [Host.dotGeneral]
  rw [Ideal.dotGeneral_apply, ← Equiv.sum_comp (ValueIdx.contrEquiv1 dot_S100000x64_S64x32_S100000x32_1_0_0_1_n_n 64 rfl rfl).symm]
  unfold Cert.KernelIdeal.Layer2.hw
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = Cert.KernelIdeal.Layer2.hiddenAt ⟨(i 0).val, (i 0).isLt⟩ k := funext fun a => Fin.ext (by
    match a with
    | ⟨0, _⟩ => exact lhs2_row _ _
    | ⟨1, _⟩ => exact (lhs2_col _ _).trans hk)
  have er : dot_S100000x64_S64x32_S100000x32_1_0_0_1_n_n.rhsIdx i ((ValueIdx.contrEquiv1 dot_S100000x64_S64x32_S100000x32_1_0_0_1_n_n 64 rfl rfl).symm k) = Cert.KernelIdeal.Layer2.weightAt k ⟨(i 1).val, (i 1).isLt⟩ := funext fun a => Fin.ext (by
    match a with
    | ⟨0, _⟩ => exact (rhs2_row _ _).trans hk
    | ⟨1, _⟩ => exact rhs2_col _ _)
  rw [el, er, ValueIdx.maximumf_apply, ValueIdx.addf_apply, row_spread]
  rfl

/-! ## The bias row -/

/-- The first bias as a 1 x 64 row, made by a broadcast or by a reshape, holds b(k) at column k. -/
theorem bias_row (b : (⟨S64, .f32⟩ : BufTy).Contents (Elt Ideal)) (k : Fin 64) :
    (broadcastInDim S1x64 ![1] bcast_S64_S1x64_1 b : (⟨S1x64, .f32⟩ : BufTy).Contents (Elt Ideal)) (Cert.KernelIdeal.Layer2.biasAt k)
      = (shapeCast Cert.KernelIdeal.S1x64 b Cert.KernelIdeal.Gen.shapeCasts_S64_S1x64 : (⟨S1x64, .f32⟩ : BufTy).Contents (Elt Ideal)) (Cert.KernelIdeal.Layer2.biasAt k) := by
  have h1 : (broadcastInDim S1x64 ![1] bcast_S64_S1x64_1 b : (⟨S1x64, .f32⟩ : BufTy).Contents (Elt Ideal)) (Cert.KernelIdeal.Layer2.biasAt k) = b (ValueIdx.ix1 k) :=
    broadcastInDim_apply ![1] bcast_S64_S1x64_1 b (Cert.KernelIdeal.Layer2.biasAt k) (ValueIdx.ix1 k) fun a => by
      match a with
      | ⟨0, _⟩ => rfl
  have h2 : (shapeCast Cert.KernelIdeal.S1x64 b Cert.KernelIdeal.Gen.shapeCasts_S64_S1x64 : (⟨S1x64, .f32⟩ : BufTy).Contents (Elt Ideal)) (Cert.KernelIdeal.Layer2.biasAt k) = b (ValueIdx.ix1 k) :=
    shapeCast_apply b Cert.KernelIdeal.Gen.shapeCasts_S64_S1x64 (Cert.KernelIdeal.Layer2.biasAt k) (ValueIdx.ix1 k) (by
      rw [Shape.rowMajor_val_one, Shape.rowMajor_val_two]
      show k.val = 0 * 64 + k.val
      omega)
  rw [h1, h2]

/-- relu (A + row) W reads the row only at its 64 columns. -/
theorem hidden_congr (A : (⟨S100000x64, .f32⟩ : BufTy).Contents (Elt Ideal)) (b b' : (⟨S1x64, .f32⟩ : BufTy).Contents (Elt Ideal))
    (w : (⟨S64x32, .f32⟩ : BufTy).Contents (Elt Ideal)) (h : ∀ k : Fin 64, b (Cert.KernelIdeal.Layer2.biasAt k) = b' (Cert.KernelIdeal.Layer2.biasAt k)) :
    Cert.KernelIdeal.Layer2.hw A b w = Cert.KernelIdeal.Layer2.hw A b' w := by
  unfold Cert.KernelIdeal.Layer2.hw
  funext i
  exact Finset.sum_congr rfl fun k _ => by rw [h k]

/-! ## One function -/

/-- The reference's two layers are the kernel program's result, as functions of the six argument arrays. -/
theorem twoLayers_eq (e : (⟨S2x1600000, .i32⟩ : BufTy).Contents (Elt Ideal)) (x : (⟨S100000x64, .f32⟩ : BufTy).Contents (Elt Ideal))
    (w1 : (⟨S64x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal)) :
    Cert.ReferenceIdeal.Term.twoLayers e x w1 b1 w2 b2 = Cert.KernelIdeal.Fold.result e x w1 b1 w2 b2 := by
  unfold Cert.ReferenceIdeal.Term.twoLayers Cert.KernelIdeal.Fold.result
  rw [first_product, second_product]
  exact congrArg (fun y => Cert.KernelIdeal.Graph.output e y b2) (hidden_congr _ _ _ w2 (bias_row b1))

end Cert.ReferenceIdeal.Bridge

end
-- ==== Proof.lean ====
/-
  A two-layer graph convolution: the Pallas program against its jnp reference, over the extended reals.

  Both programs compute, from node features X, an edge list, weights W1, W2 and biases b1, b2,
      out = Agg (relu (Agg (X W1) + b1) W2) + b2,
  where Agg gathers a node array's rows at the sources of the edges (the given edges and one self loop per node),
  scales each by degree^(-1/2) at its two endpoints, and adds them into the rows of the targets. The Pallas program
  forms the two dense products X W1 and relu (· + b1) W2 in kernel regions, 5000 rows at a time, with the operands
  narrowed to bf16 on the way to the matrix unit; the reference forms them as whole-array products. At the extended
  reals the narrowing is the identity and a product is its plain sum, so each region leaves exactly the whole-array
  product (`Layer1`, `Layer2`); the graph side is the same chain of host operations in both programs (`Graph`), read
  off the kernel program's run segment by segment (`Fold`) and off the reference's composed term (`ReferenceTerm`);
  `Bridge` identifies the two. The three frames are the generated ones (the reference's is its run with the result
  dropped); the idealization rewrote nothing, so `preserves` is trivial. No step needs the inputs to be finite.
-/
import proofs.«117709_j78297253806422_1_alg».proof.Defs
import proofs.«117709_j78297253806422_1_alg».proof.Proof.Gen.Kernel
import proofs.«117709_j78297253806422_1_alg».proof.Proof.Gen.Kernel.Skeleton
import proofs.«117709_j78297253806422_1_alg».proof.Proof.Gen.Kernel.Launch
import proofs.«117709_j78297253806422_1_alg».proof.Proof.Gen.Kernel.Points
import proofs.«117709_j78297253806422_1_alg».proof.Proof.Gen.Kernel.Frame
import proofs.«117709_j78297253806422_1_alg».proof.Proof.Gen.KernelIdeal
import proofs.«117709_j78297253806422_1_alg».proof.Proof.Gen.KernelIdeal.Skeleton
import proofs.«117709_j78297253806422_1_alg».proof.Proof.Gen.KernelIdeal.Launch
import proofs.«117709_j78297253806422_1_alg».proof.Proof.Gen.KernelIdeal.Points
import proofs.«117709_j78297253806422_1_alg».proof.Proof.Gen.KernelIdeal.Frame
import proofs.«117709_j78297253806422_1_alg».proof.Proof.Gen.ReferenceIdeal
import proofs.«117709_j78297253806422_1_alg».proof.Proof.Gen.Pre_finite_inputs
import proofs.«117709_j78297253806422_1_alg».proof.Proof.ReferenceRun
import proofs.«117709_j78297253806422_1_alg».proof.Proof.KernelRun
import proofs.«117709_j78297253806422_1_alg».proof.Proof.Fold
import proofs.«117709_j78297253806422_1_alg».proof.Proof.ReferenceTerm
import proofs.«117709_j78297253806422_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `Fold.result` of the (agreeing) argument arrays. -/
theorem algebraic : Cert.algebraic_KernelIdeal_ReferenceIdeal := by
  intro m ρ m' ρ' _ hagree
  refine ⟨fun c => Cert.KernelIdeal.Fold.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_at7 m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Term.result_term m' c, (hagree c).1, (hagree c).2.1, (hagree c).2.2.1, (hagree c).2.2.2.1,
      (hagree c).2.2.2.2.1, (hagree c).2.2.2.2.2]
    exact Cert.ReferenceIdeal.Bridge.twoLayers_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
